-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  main_v8
-- ==== Kernel.lean ====
abbrev S32x2048 : Shape := ⟨2, ![32, 2048]⟩
abbrev S1x1 : Shape := ⟨2, ![1, 1]⟩
abbrev S32x1024 : Shape := ⟨2, ![32, 1024]⟩
abbrev S32 : Shape := ⟨1, ![32]⟩
abbrev S32x1 : Shape := ⟨2, ![32, 1]⟩
abbrev S1 : Shape := ⟨1, ![1]⟩
abbrev S1024 : Shape := ⟨1, ![1024]⟩
abbrev S1x1024 : Shape := ⟨2, ![1, 1024]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S1x1, .f32⟩
  | .hbm, ⟨3, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S1x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S32x2048_S32x2048_0_0 : ∀ a, (![0, 0] : Fin 2 → Nat) a + S32x2048.size a ≤ S32x2048.size a
  h_S32x2048 : 0 < S32x2048.numel
  slices_S32x2048_o0_0_S32x1024 : S32x2048.Slices ![0, 0] S32x1024
  slices_S32x2048_o0_1024_S32x1024 : S32x2048.Slices ![0, 1024] S32x1024
  reduces_S32x1024_S32 : S32x1024.Reduces [1] S32
  shapeCasts_S32_S32x1 : S32.ShapeCasts S32x1
  reduces_S32x1_S1 : S32x1.Reduces [0] S1
  shapeCasts_S1_S1x1 : S1.ShapeCasts S1x1
  broadcasts_S32x1_S32x1024 : S32x1.Broadcasts S32x1024
  reduces_S32x1024_S1024 : S32x1024.Reduces [0] S1024
  shapeCasts_S1024_S1x1024 : S1024.ShapeCasts S1x1024
  broadcasts_S1x1_S1x1024 : S1x1.Broadcasts S1x1024
  reduces_S1x1024_S1 : S1x1024.Reduces [1] S1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S32x1024 : Shape := ⟨2, ![32, 1024]⟩
abbrev S32x1x1024 : Shape := ⟨3, ![32, 1, 1024]⟩
abbrev S32x1024x1 : Shape := ⟨3, ![32, 1024, 1]⟩
abbrev S32x1024x1024 : Shape := ⟨3, ![32, 1024, 1024]⟩
abbrev S_ : Shape := ⟨0, ![]⟩
abbrev S1024 : Shape := ⟨1, ![1024]⟩

abbrev nBuf : Space → Nat
  | .hbm => 30
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048, .f32⟩
  | .hbm, ⟨3, _⟩ => ⟨S32x1024, .f32⟩
  | .hbm, ⟨4, _⟩ => ⟨S32x1024, .f32⟩
  | .hbm, ⟨5, _⟩ => ⟨S32x1x1024, .f32⟩
  | .hbm, ⟨6, _⟩ => ⟨S32x1024x1, .f32⟩
  | .hbm, ⟨7, _⟩ => ⟨S32x1024x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S_, .f32⟩
  | .hbm, ⟨16, _⟩ => ⟨S32x1x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S32x1024x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  slices_S32x2048_S32x1024_0_0 : S32x2048.Slices ![0, 0] S32x1024
  slices_S32x2048_S32x1024_0_1024 : S32x2048.Slices ![0, 1024] S32x1024
  bcast_S32x1024_S32x1x1024_0_2 : S32x1024.BroadcastsInDim S32x1x1024 (![0, 2] : Fin 2 → Fin S32x1x1024.rank)
  bcast_S32x1024_S32x1024x1_0_1 : S32x1024.BroadcastsInDim S32x1024x1 (![0, 1] : Fin 2 → Fin S32x1024x1.rank)
  bcast_S32x1x1024_S32x1024x1024_0_1_2 : S32x1x1024.BroadcastsInDim S32x1024x1024 (![0, 1, 2] : Fin 3 → Fin S32x1024x1024.rank)
  bcast_S32x1024x1_S32x1024x1024_0_1_2 : S32x1024x1.BroadcastsInDim S32x1024x1024 (![0, 1, 2] : Fin 3 → Fin S32x1024x1024.rank)
  reducesTo_S32x1024x1024_S1024_d0_2 : S32x1024x1024.ReducesTo [0, 2] S1024
  h_S_ : 0 < S_.numel
  reducesTo_S1024_S_d0 : S1024.ReducesTo [0] S_

variable [Facts₀]

class Facts : Prop extends Facts₀ where

variable [Facts]
-- ==== Proof.KernelRun.lean ====
/-
  The kernel's run, with its result named. The grid has one point and every window's block is its whole array, so the
  body sees the two input tables entire and what it stores IS the [1, 1] output array; the line after the call views
  that array as a scalar. Hence the program's result is the body's stored value (the canon of its one store over the
  two whole tables) read as a scalar, and the argument tables end unchanged.
-/
import proofs.«156745_j47278999994715_1_alg».proof.Proof.Gen.KernelIdeal.Frame
import Idealize.ShloMosaic.Lib.Pipeline.Value
import Idealize.ShloMosaic.Lib.StableHlo.Run

set_option maxRecDepth 16384

noncomputable section

namespace Cert.KernelIdeal.KRun

open Idealize.ShloMosaic Idealize.ShloMosaic.TcCoe Idealize.SL.Sem Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- At the grid's one point every window's block index is zero on both axes. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first input's block is the whole first table. -/
theorem block0 (c : Dev nD) (t : Fin cfg0.N) : iblk m c 0 t = V m c main_arg0 := by
  obtain ⟨e0, e1, -, -, -, -⟩ := index_zero t
  funext j
  show V m c main_arg0 (((cfg0.win 0).blk t).view.emb j) = V m c main_arg0 j
  refine congrArg (V m c main_arg0) ?_
  funext a; apply Fin.ext
  match a with
  | ⟨0, _⟩ => show win0_0.index t (0 : Fin 2) * 32 + 1 * (j 0).val = (j 0).val; omega
  | ⟨1, _⟩ => show win0_0.index t (1 : Fin 2) * 2048 + 1 * (j 1).val = (j 1).val; omega

/-- The second input's block is the whole second table. -/
theorem block1 (c : Dev nD) (t : Fin cfg0.N) : iblk m c 1 t = V m c main_arg1 := by
  obtain ⟨-, -, e2, e3, -, -⟩ := index_zero t
  funext j
  show V m c main_arg1 (((cfg0.win 1).blk t).view.emb j) = V m c main_arg1 j
  refine congrArg (V m c main_arg1) ?_
  funext a; apply Fin.ext
  match a with
  | ⟨0, _⟩ => show win0_1.index t (0 : Fin 2) * 32 + 1 * (j 0).val = (j 0).val; omega
  | ⟨1, _⟩ => show win0_1.index t (1 : Fin 2) * 2048 + 1 * (j 1).val = (j 1).val; omega

/-- What the point writes back is the output block of the body's stored value over the whole tables. -/
theorem flushed_eq (c : Dev nD) (t : Fin cfg0.N) :
    (dats m 0 c).flushed 2 t = ((cfg0.win 2).blk t).view.read (Elt F) (out0_2 (V m c main_arg0) (V m c main_arg1)) := by
  show (cfg0.win 2).cut (grid0.coords t) ((dats m 0 c).after 2 t) = _
  rw [after0_2, block0, block1]
  obtain ⟨-, -, -, -, e4, e5⟩ := index_zero t
  funext j
  show out0_2 (V m c main_arg0) (V m c main_arg1) j = out0_2 (V m c main_arg0) (V m c main_arg1) (((cfg0.win 2).blk t).view.emb j)
  refine congrArg (out0_2 (V m c main_arg0) (V m c main_arg1)) ?_
  funext a; apply Fin.ext
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- An index of the output array is in a point's block iff each coordinate is in the block's range. -/
theorem mem_block (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The one block covers the output array. -/
theorem covered (i : S1x1.Idx) : ∃ t : Fin cfg0.N, (cfg0.win 2).flush t = true ∧ i ∈ ((cfg0.win 2).blk t).view.set := by
  refine ⟨t0_0, flush0_2 t0_0, ?_⟩
  rw [mem_block]
  obtain ⟨-, -, -, -, e4, e5⟩ := index_zero t0_0
  intro a
  match a with
  | ⟨0, _⟩ =>
    show win0_2.index t0_0 (0 : Fin 2) * 1 ≤ (i 0).val ∧ (i 0).val < win0_2.index t0_0 (0 : Fin 2) * 1 + 1
    have h0 : (i 0).val < 1 := (i 0).isLt
    omega
  | ⟨1, _⟩ =>
    show win0_2.index t0_0 (1 : Fin 2) * 1 ≤ (i 1).val ∧ (i 1).val < win0_2.index t0_0 (1 : Fin 2) * 1 + 1
    have h1 : (i 1).val < 1 := (i 1).isLt
    omega

/-- The output array after the run is the body's stored value over the whole tables. -/
theorem final (c : Dev nD) : (dats m 0 c).arrAt 2 cfg0.N = out0_2 (V m c main_arg0) (V m c main_arg1) :=
  (dats m 0 c).arrAt_eq_of_cover 2 _ (fun t _ => flushed_eq m c t) covered

/-- The line after the call reads the output array as a scalar. -/
theorem tail (c : Dev nD) :
    Pipeline.afterTail₀ cfgs (dats m) 0 (V0 m) [hostOps1] c main_v1
      = shapeCast S_ (out0_2 (V m c main_arg0) (V m c main_arg1)) shapeCasts_S1x1_S_ := by
  unfold Pipeline.afterTail₀
  show StableHlo.after hostOps1 _ (Proc.devRef .tc main_v1) = _
  after_results
  funext i
  show shapeCast S_ (Pipeline.withArrays spec0 c (V0 m c) (fun w => (dats m 0 c).arrAt w cfg0.N)
    (Proc.devRef .tc (Pipeline.arrRef spec0 2))) shapeCasts_S1x1_S_ i = _
  rw [Pipeline.withArrays_arr spec0 launch0.win.arr_inj c _ _ 2, final]

/-- The scalar result buffer bypasses the region. -/
theorem result_mem : main_v1 ∈ Pipeline.restRefs sig (cfgs 0).spec :=
  Pipeline.mem_restRefs_of main_v1 rfl (by decide)

/-- THE RUN: every weakly fair execution terminates with the result at the body's stored value over the argument
    tables, read as a scalar, and the argument tables unchanged. -/
theorem run : θ_run defs (onTc (τ := τ) (main (F := F))) ⟨m, fun _ => 0, ρ⟩ fun r => ∀ c : Dev nD,
      r.2.mem ((c.tc : Thread nD τ).loc main_v1)
        = shapeCast S_ (out0_2 (m ((c.tc : Thread nD τ).loc main_arg0)) (m ((c.tc : Thread nD τ).loc main_arg1))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 result_mem).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.FiniteEntries.lean ====
/-
  The precondition read back: it states, for each of the two input tables, that every entry's absolute value is below
  plus infinity. On the extended reals `max x (-x) < ⊤` excludes exactly `x = ⊤` and `x = ⊥`, so every entry is (the
  coercion of) a real number.
-/
import proofs.«156745_j47278999994715_1_alg».proof.Pre_finite_inputs
import Idealize.ShloMosaic.Lib.ReduceAll
import Idealize.ShloMosaic.Lib.ValueIdx
import Idealize.ShloMosaic.PureOps.Ideal

noncomputable section

namespace Cert.Pre_finite_inputs.Entries

open Idealize.ShloMosaic Idealize.ShloMosaic.ValueIdx Cert.Pre_finite_inputs

variable [Facts]

instance : Subsingleton S_.Idx := ⟨fun _ _ => funext fun d => d.elim0⟩

/-- The f32 pattern of plus infinity is the top extended real. -/
theorem ofBits_posInf : Ideal.ofBits .f32 0x7F800000#32 = (⊤ : EReal) := by
  simp [Ideal.ofBits, Ideal.ieee]

/-- An extended real whose absolute value is below plus infinity is real. -/
theorem real_of_abs_lt (x : EReal) (h : Ideal.cmp .olt (max x (-x)) (Ideal.ofBits .f32 0x7F800000#32) = 1#1) :
    ∃ r : ℝ, x = (r : EReal) := by
  rw [ofBits_posInf] at h
  induction x using EReal.rec with
  | bot => simp [Ideal.cmp] at h
  | coe r => exact ⟨r, rfl⟩
  | top => simp [Ideal.cmp] at h

/-- Under the precondition every entry of both tables is real. -/
theorem real_of_pre (a0 a1 : FVec Ideal S32x2048 .f32) (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨h1, h2⟩ := IntOp.andi_eq_one.1 h0
  exact ⟨fun i => real_of_abs_lt (a0 i) (Host.reduce_andi_all _ _ _ _ ix0 h1 i),
    fun i => real_of_abs_lt (a1 i) (Host.reduce_andi_all _ _ _ _ ix0 h2 i)⟩

end Cert.Pre_finite_inputs.Entries

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.LibColumnSums.lean ====
/-
  Column sums of squares, taken in row blocks and rescaled: general facts, at the ideal instance where floats are
  extended reals.

  * `sum_idx1`: a sum over the index set of a rank-1 shape is the sum over its one coordinate.
  * `multiReduction_add_col`: for a vector `x` of shape [R, D], the kernel's reduction with an add body along the
    FIRST axis is, at column `k`, the sum of the column's entries `x (r, k)`, `r : Fin R`.
  * `sum_blocks`: a sum over `N = B·R` rows is the sum over `B` blocks of the sums over the `R` rows of each block,
    row `R·t + r` being row `r` of block `t`.
  * `mul_self_nonneg`: a square of an extended real is nonnegative (also at the two infinities).
  * `sum_mul_of_nonneg`: a finite sum of NONNEGATIVE extended reals times `c` is the sum of the products. In the
    extended reals `(a + b)·c = a·c + b·c` fails in general (`a = ⊤`, `b = ⊥`), but it holds for `0 ≤ a, b`.
  * `sum_sq_scaled`: `∑ (xᵢ·c)·(xᵢ·c) = (∑ xᵢ·xᵢ)·(c·c)` for ANY extended reals `xᵢ` and `c`: scaling every entry by
    `c` before squaring and summing is scaling the sum of squares by `c²`.
-/
import Idealize.ShloMosaic.PureOps.Ideal.Laws
import Idealize.ShloMosaic.Lib.ValueIdx
import Mathlib.Data.EReal.Operations
import Mathlib.Logic.Equiv.Fin.Basic
import Mathlib.Algebra.BigOperators.Fin
import Mathlib.Data.Fintype.BigOperators

noncomputable section

open scoped BigOperators

namespace Cert.ColumnSums

open Idealize.ShloMosaic Idealize.ShloMosaic.ValueIdx

/-! ## Sums over a rank-1 index set -/

/-- A rank-1 index set is its one coordinate range. -/
def idxEquiv1 {n : Nat} : (⟨1, ![n]⟩ : Shape).Idx ≃ Fin n where
  toFun i := i 0
  invFun k := ix1 k
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## A reduction along the first axis, read at a column -/

variable {φ : FTy} {R D : Nat}

/-- Column `k` with row `r` put back on the reduced first axis is the index (r, k). -/
theorem lift_col (h : (⟨2, ![R, D]⟩ : Shape).Reduces [0] (⟨1, ![D]⟩ : Shape)) (k : Fin D)
    (r : Fin ((⟨2, ![R, D]⟩ : Shape).size 0)) : h.lift (ix1 k) r = ix2 (⟨r.val, r.isLt⟩ : Fin R) k := by
  funext c; apply Fin.ext
  fin_cases c <;> rfl

/-- A reduction with an add body over the rows, at column `k`: the sum of that column's entries. -/
theorem multiReduction_add_col (x : FVec Ideal ⟨2, ![R, D]⟩ φ) (acc : BitVec φ.bits)
    (h : (⟨2, ![R, D]⟩ : Shape).Reduces [0] (⟨1, ![D]⟩ : Shape)) (hφ : FKind.Formats φ)
    (hacc : acc = FKind.add.neutral φ hφ) (k : Fin D) :
    multiReduction .add [0] ⟨1, ![D]⟩ x acc h hφ hacc (ix1 k) = ∑ r : Fin R, x (ix2 r k) := by
  rw [Ideal.multiReduction_add_single]
  exact Finset.sum_congr rfl fun r _ => congrArg x (lift_col h k r)

/-! ## A sum over rows taken block by block -/

/-- Row `r` of block `t` is a row of the whole: `R·t + r < B·R`. -/
theorem block_row_lt {B R : Nat} (t : Fin B) (r : Fin R) : R * t.val + r.val < B * R :=
  calc R * t.val + r.val < R * t.val + R := Nat.add_lt_add_left r.isLt _
    _ = R * (t.val + 1) := (Nat.mul_succ R t.val).symm
    _ ≤ R * B := Nat.mul_le_mul_left R t.isLt
    _ = B * R := Nat.mul_comm R B

/-- `N = B·R` rows as `B` blocks of `R` rows: the sum over the rows is the sum, over the blocks, of each
    block's sum; row `R·t + r` is row `r` of block `t`. -/
theorem sum_blocks {M : Type*} [AddCommMonoid M] (B R N : Nat) (hN : N = B * R) (f : Fin N → M) :
    ∑ i, f i = ∑ t : Fin B, ∑ r : Fin R, f ⟨R * t.val + r.val, hN ▸ block_row_lt t r⟩ := by
  subst hN
  rw [← Equiv.sum_comp finProdFinEquiv f, Fintype.sum_prod_type]
  refine Finset.sum_congr rfl fun t _ => Finset.sum_congr rfl fun r _ => congrArg f (Fin.ext ?_)
  show r.val + R * t.val = R * t.val + r.val
  exact Nat.add_comm _ _

/-! ## Nonnegative extended reals: distributivity over a finite sum -/

/-- A square is nonnegative, at the infinities too. -/
theorem mul_self_nonneg (x : EReal) : 0 ≤ x * x := by
  rcases le_total 0 x with h | h
  · exact EReal.mul_nonneg_iff.mpr (Or.inl ⟨h, h⟩)
  · exact EReal.mul_nonneg_iff.mpr (Or.inr ⟨h, h⟩)

/-- A finite sum of nonnegative extended reals, times `c`, is the sum of the products. -/
theorem sum_mul_of_nonneg {ι : Type*} (s : Finset ι) (a : ι → EReal) (ha : ∀ i ∈ s, 0 ≤ a i) (c : EReal) :
    ∑ i ∈ s, a i * c = (∑ i ∈ s, a i) * c := by
  classical
  induction s using Finset.induction_on with
  | empty => rw [Finset.sum_empty, Finset.sum_empty, zero_mul]
  | insert j s hj ih =>
    rw [Finset.sum_insert hj, Finset.sum_insert hj,
      ih (fun i hi => ha i (Finset.mem_insert_of_mem hi)),
      EReal.right_distrib_of_nonneg (ha j (Finset.mem_insert_self j s))
        (Finset.sum_nonneg fun i hi => ha i (Finset.mem_insert_of_mem hi))]

/-- Scaling every entry by `c` before squaring and summing is scaling the sum of squares by `c·c`. -/
theorem sum_sq_scaled {ι : Type*} [Fintype ι] (x : ι → EReal) (c : EReal) :
    ∑ i, (x i * c) * (x i * c) = (∑ i, x i * x i) * (c * c) := by
  rw [← sum_mul_of_nonneg Finset.univ (fun i => x i * x i) (fun i _ => mul_self_nonneg (x i)) (c * c)]
  exact Finset.sum_congr rfl fun i _ => mul_mul_mul_comm (x i) c (x i) c

end Cert.ColumnSums

end
-- ==== Proof.KernelHalf.lean ====
/-
  What the kernel body computes for ONE half of the difference table. The body treats the two halves (the first 1024
  columns and the last 1024) alike: from a table `v` of shape [32, 1024] it forms, for every anchor column `i`,

      f i = S - 2 · a i + 1024 · c i,     S = ∑_b ∑_j (v b j)²,   a i = ∑_b (∑_j v b j) · v b i,   c i = ∑_b (v b i)²,

  (row sums kept as columns [32, 1], the total kept as [1, 1], the per-anchor sums as rows [1, 1024]), takes the square
  root of each `f i` and sums the roots into a [1, 1] value. `halfSum` is that chain of operations as the body spells it;
  the body's stored value is the sum of the two halves' `halfSum`s divided by 64 (`stored_eq`, by unfolding), and read
  at its one index `halfSum v` is `∑_i sqrt (f i)` with the sums written over the coordinates (`halfSum_apply`).
-/
import proofs.«156745_j47278999994715_1_alg».proof.Proof.Gen.KernelIdeal.Skeleton
import proofs.«156745_j47278999994715_1_alg».proof.Proof.LibKeepdims
import proofs.«156745_j47278999994715_1_alg».proof.Proof.LibRowReduce
import proofs.«156745_j47278999994715_1_alg».proof.Proof.LibColumnSums
import Idealize.ShloMosaic.Lib.ValueLayout
import Idealize.ShloMosaic.PureOps.Ideal.Laws

noncomputable section

open scoped BigOperators

namespace Cert.KernelIdeal.Half

open Idealize.ShloMosaic Idealize.ShloMosaic.ValueIdx Cert.KernelIdeal
open Facts₀ Facts

variable {F : FTy → Type} [FloatOps F] [Facts]

/-- One half's chain of operations, as the body spells it: from the table `v` to the [1, 1] sum of roots. -/
def halfSum (v : FVec F S32x1024 .f32) : FVec F S1x1 .f32 :=
  have sq : FVec F S32x1024 .f32 := mulf v v
  have rowSq : FVec F S32 .f32 := multiReduction .add [1] S32 sq 0x00000000#32 reduces_S32x1024_S32 (.inl rfl) rfl
  have rowSqCol : FVec F S32x1 .f32 := shapeCast S32x1 rowSq shapeCasts_S32_S32x1
  have tot : FVec F S1 .f32 := multiReduction .add [0] S1 rowSqCol 0x00000000#32 reduces_S32x1_S1 (.inl rfl) rfl
  have totK : FVec F S1x1 .f32 := shapeCast S1x1 tot shapeCasts_S1_S1x1
  have rowSum : FVec F S32 .f32 := multiReduction .add [1] S32 v 0x00000000#32 reduces_S32x1024_S32 (.inl rfl) rfl
  have rowSumCol : FVec F S32x1 .f32 := shapeCast S32x1 rowSum shapeCasts_S32_S32x1
  have rowSumB : FVec F S32x1024 .f32 := broadcastTo S32x1024 rowSumCol broadcasts_S32x1_S32x1024
  have cross : FVec F S32x1024 .f32 := mulf rowSumB v
  have a : FVec F S1024 .f32 := multiReduction .add [0] S1024 cross 0x00000000#32 reduces_S32x1024_S1024 (.inl rfl) rfl
  have aK : FVec F S1x1024 .f32 := shapeCast S1x1024 a shapeCasts_S1024_S1x1024
  have c : FVec F S1024 .f32 := multiReduction .add [0] S1024 sq 0x00000000#32 reduces_S32x1024_S1024 (.inl rfl) rfl
  have cK : FVec F S1x1024 .f32 := shapeCast S1x1024 c shapeCasts_S1024_S1x1024
  have two : FVec F S1x1024 .f32 := broadcast S1x1024 (Scalar.ofBits .f32 0x40000000#32)
  have twoA : FVec F S1x1024 .f32 := mulf two aK
  have totB : FVec F S1x1024 .f32 := broadcastTo S1x1024 totK broadcasts_S1x1_S1x1024
  have d : FVec F S1x1024 .f32 := subf totB twoA
  have n : FVec F S1x1024 .f32 := broadcast S1x1024 (Scalar.ofBits .f32 0x44800000#32)
  have nC : FVec F S1x1024 .f32 := mulf n cK
  have f : FVec F S1x1024 .f32 := addf d nC
  have root : FVec F S1x1024 .f32 := sqrt f
  have s : FVec F S1 .f32 := multiReduction .add [1] S1 root 0x00000000#32 reduces_S1x1024_S1 (.inl rfl) rfl
  shapeCast S1x1 s shapeCasts_S1_S1x1

/-- The body's stored value: the two halves' sums added and divided by 64. -/
theorem stored_eq (x0 x1 : Vec F S32x2048 .f32) :
    Gen.k0_pay1 (Gen.k0_pay4 x0 x1) (Gen.k0_pay6 x0 x1) (Gen.k0_pay7 x0 x1) (Gen.k0_pay8 x0 x1) (Scalar.ofBits .f32 0x40000000#32)
      = divf (addf (halfSum (extractStridedSlice S32x1024 ![0, 0] (subf x0 x1) slices_S32x2048_o0_0_S32x1024))
            (halfSum (extractStridedSlice S32x1024 ![0, 1024] (subf x0 x1) slices_S32x2048_o0_1024_S32x1024)))
          (broadcast S1x1 (Scalar.ofBits .f32 0x42800000#32)) := rfl

/-- A square root of a vector, read at an index. -/
theorem sqrt_apply {s : Shape} {φ : FTy} (a : FVec Ideal s φ) (i : s.Idx) : sqrt a i = Ideal.sqrt (a i) := rfl

/-- The total of the squares: the row sums of squares, kept as a column, summed. -/
theorem total_apply (v : FVec Ideal S32x1024 .f32) (h1 : S32x1024.Reduces [1] S32) (h2 : S32.ShapeCasts S32x1)
    (h3 : S32x1.Reduces [0] S1) (hφ : FKind.Formats .f32) (hacc : (0x00000000#32 : BitVec 32) = 0x00000000#32) (u : Fin 1) :
    multiReduction .add [0] S1 (shapeCast S32x1 (multiReduction .add [1] S32 (mulf v v) 0x00000000#32 h1 hφ hacc) h2)
        0x00000000#32 h3 hφ hacc (ix1 u)
      = ∑ b : Fin 32, ∑ j : Fin 1024, v (ix2 b j) * v (ix2 b j) := by
  refine (Cert.ColumnSums.multiReduction_add_col _ _ h3 hφ hacc u).trans (Finset.sum_congr rfl fun b _ => ?_)
  refine (Cert.Keepdims.shapeCast_a_a1_apply _ h2 b u).trans ?_
  exact RowReduce.multiReduction_add_row (mulf v v) _ h1 hφ hacc b

/-- The cross term at anchor `i`: each row's sum, broadcast along the row, times the row's entry at `i`, summed over rows. -/
theorem cross_apply (v : FVec Ideal S32x1024 .f32) (h1 : S32x1024.Reduces [1] S32) (h2 : S32.ShapeCasts S32x1)
    (h3 : S32x1.Broadcasts S32x1024) (h4 : S32x1024.Reduces [0] S1024) (hφ : FKind.Formats .f32)
    (hacc : (0x00000000#32 : BitVec 32) = 0x00000000#32) (i : Fin 1024) :
    multiReduction .add [0] S1024
        (mulf (broadcastTo S32x1024 (shapeCast S32x1 (multiReduction .add [1] S32 v 0x00000000#32 h1 hφ hacc) h2) h3) v)
        0x00000000#32 h4 hφ hacc (ix1 i)
      = ∑ b : Fin 32, (∑ j : Fin 1024, v (ix2 b j)) * v (ix2 b i) := by
  refine (Cert.ColumnSums.multiReduction_add_col _ _ h4 hφ hacc i).trans (Finset.sum_congr rfl fun b _ => ?_)
  show broadcastTo S32x1024 (shapeCast S32x1 (multiReduction .add [1] S32 v 0x00000000#32 h1 hφ hacc) h2) h3 (ix2 b i) * v (ix2 b i) = _
  refine congrArg (· * v (ix2 b i)) ?_
  refine (Cert.Keepdims.broadcastTo_a1_ab_apply _ h3 b i).trans ?_
  refine (Cert.Keepdims.shapeCast_a_a1_apply _ h2 b 0).trans ?_
  exact RowReduce.multiReduction_add_row v _ h1 hφ hacc b

/-- The anchor's own squares at anchor `i`, summed over rows. -/
theorem own_apply (v : FVec Ideal S32x1024 .f32) (h4 : S32x1024.Reduces [0] S1024) (hφ : FKind.Formats .f32)
    (hacc : (0x00000000#32 : BitVec 32) = 0x00000000#32) (i : Fin 1024) :
    multiReduction .add [0] S1024 (mulf v v) 0x00000000#32 h4 hφ hacc (ix1 i) = ∑ b : Fin 32, v (ix2 b i) * v (ix2 b i) :=
  Cert.ColumnSums.multiReduction_add_col (mulf v v) _ h4 hφ hacc i

/-- One half's sum of roots at its one index, over the coordinates. -/
theorem halfSum_apply (v : FVec Ideal S32x1024 .f32) :
    halfSum v (ix2 (0 : Fin 1) (0 : Fin 1))
      = ∑ i : Fin 1024, Ideal.sqrt ((∑ b : Fin 32, ∑ j : Fin 1024, v (ix2 b j) * v (ix2 b j))
          - Ideal.ofBits .f32 0x40000000#32 * (∑ b : Fin 32, (∑ j : Fin 1024, v (ix2 b j)) * v (ix2 b i))
          + Ideal.ofBits .f32 0x44800000#32 * ∑ b : Fin 32, v (ix2 b i) * v (ix2 b i)) := by
  unfold halfSum
  refine (Cert.Keepdims.shapeCast_a_a1_apply _ _ _ _).trans ?_
  refine (RowReduce.multiReduction_add_row _ _ _ _ _ _).trans ?_
  refine Finset.sum_congr rfl fun i _ => ?_
  simp only [sqrt_apply, addf_apply, subf_apply, mulf_apply, broadcast_apply,
    Cert.Keepdims.broadcastTo_a1_ab_apply, Cert.Keepdims.shapeCast_a_a1_apply, shapeCast_a_1a_apply]
  refine congrArg Ideal.sqrt (congrArg₂ (· + ·) (congrArg₂ (· - ·) ?_ (congrArg (_ * ·) ?_)) (congrArg (_ * ·) ?_))
  · exact total_apply v _ _ _ _ _ 0
  · exact cross_apply v _ _ _ _ _ _ i
  · exact own_apply v _ _ _ i

end Cert.KernelIdeal.Half

end
-- ==== Proof.LibOuterAxesSum.lean ====
/-
  The host's sum of a rank-3 array over its FIRST and LAST axes, read at an index of the middle axis: for `x` of shape
  [A, M, C] and a middle coordinate `i`, the initial value plus the double sum of `x (a, i, c)` over `a` and `c`.
  The entries that reduce to `i` are exactly those whose middle coordinate is `i`, and they correspond one to one to
  the pairs `(a, c)` of the other two coordinates.
-/
import Idealize.ShloMosaic.PureOps.Ideal.Laws
import Idealize.ShloMosaic.Lib.ValueIdx

noncomputable section

open scoped BigOperators

namespace Cert.OuterAxesSum

open Idealize.ShloMosaic Idealize.ShloMosaic.ValueIdx

variable {A M C : Nat}

/-- Dropping the first and last axes keeps the middle coordinate. -/
theorem drop_val (h : (⟨3, ![A, M, C]⟩ : Shape).ReducesTo [0, 2] (⟨1, ![M]⟩ : Shape))
    (j : (⟨3, ![A, M, C]⟩ : Shape).Idx) : (h.drop j 0 : Nat) = (j 1 : Nat) := rfl

/-- The host's float sum over the first and last axes, at middle coordinate `i`. -/
theorem hostReduceAdd_outer (x : (⟨3, ![A, M, C]⟩ : Shape).Idx → EReal) (init : EReal)
    (h : (⟨3, ![A, M, C]⟩ : Shape).ReducesTo [0, 2] (⟨1, ![M]⟩ : Shape)) (i : Fin M) :
    Ideal.hostReduceAdd h x init (ix1 i) = init + ∑ a : Fin A, ∑ c : Fin C, x (ix3 a i c) := by
  unfold Ideal.hostReduceAdd
  refine congrArg (init + ·) ?_
  rw [← Fintype.sum_prod_type' (fun (a : Fin A) (c : Fin C) => x (ix3 a i c))]
  refine Finset.sum_nbij' (fun j => ((j 0, j 2) : Fin A × Fin C)) (fun p => ix3 p.1 i p.2) ?_ ?_ ?_ ?_ ?_
  · intro j _; exact Finset.mem_univ _
  · intro p _
    refine Finset.mem_filter.mpr ⟨Finset.mem_univ _, ?_⟩
    funext d; apply Fin.ext
    match d with
    | ⟨0, _⟩ => exact drop_val h (ix3 p.1 i p.2)
  · intro j hj
    have hj' := (Finset.mem_filter.mp hj).2
    have e1 : (j 1 : Nat) = i.val := (drop_val h j).symm.trans (congrArg (fun q : (⟨1, ![M]⟩ : Shape).Idx => (q 0 : Nat)) hj')
    funext d; apply Fin.ext
    match d with
    | ⟨0, _⟩ => rfl
    | ⟨1, _⟩ => exact e1.symm
    | ⟨2, _⟩ => rfl
  · intro p _; rfl
  · intro j hj
    have hj' := (Finset.mem_filter.mp hj).2
    have e1 : (j 1 : Nat) = i.val := (drop_val h j).symm.trans (congrArg (fun q : (⟨1, ![M]⟩ : Shape).Idx => (q 0 : Nat)) hj')
    refine congrArg x ?_
    funext d; apply Fin.ext
    match d with
    | ⟨0, _⟩ => rfl
    | ⟨1, _⟩ => exact e1
    | ⟨2, _⟩ => rfl

end Cert.OuterAxesSum

end
-- ==== Proof.RefHalf.lean ====
/-
  What the reference computes for ONE half of the difference table. From a table `v` of shape [32, 1024] it builds the
  [32, 1024, 1024] array of pairwise differences `v b k - v b i` (entry (b, i, k): anchor `i` on the middle axis, the
  other column `k` on the last), squares it, sums over the row axis and the last axis, which leaves for each anchor `i`

      g i = ∑_b ∑_k (v b k - v b i)²,

  takes the square roots and sums them over the anchors. `halfSum` is that chain of operations as the reference spells
  it; the reference's result is the two halves' `halfSum`s added and divided by 64 (`result_eq`, by unfolding), and read
  at its one index `halfSum v` is `0 + ∑_i sqrt (0 + g i)`, the zeros being the two sums' initial values.
-/
import proofs.«156745_j47278999994715_1_alg».proof.Proof.Gen.ReferenceIdeal.Read
import proofs.«156745_j47278999994715_1_alg».proof.Proof.LibOuterAxesSum
import proofs.«156745_j47278999994715_1_alg».proof.Proof.LibColumnSums
import Idealize.ShloMosaic.Lib.Pipeline.Value
import Idealize.ShloMosaic.PureOps.Ideal.Laws

noncomputable section

open scoped BigOperators

namespace Cert.ReferenceIdeal.Half

open Idealize.ShloMosaic Idealize.ShloMosaic.ValueIdx Cert.ReferenceIdeal
open Facts₀ Facts

variable {F : FTy → Type} [FloatOps F] [Facts]

/-- The table laid along the LAST axis of the [32, 1024, 1024] array: entry (b, i, k) is `v b k`. -/
def alongLast (v : FVec F S32x1024 .f32) : FVec F S32x1024x1024 .f32 :=
  broadcastInDim S32x1024x1024 ![0, 1, 2] bcast_S32x1x1024_S32x1024x1024_0_1_2
    (broadcastInDim S32x1x1024 ![0, 2] bcast_S32x1024_S32x1x1024_0_2 v)

/-- The table laid along the MIDDLE axis: entry (b, i, k) is `v b i`. -/
def alongMiddle (v : FVec F S32x1024 .f32) : FVec F S32x1024x1024 .f32 :=
  broadcastInDim S32x1024x1024 ![0, 1, 2] bcast_S32x1024x1_S32x1024x1024_0_1_2
    (broadcastInDim S32x1024x1 ![0, 1] bcast_S32x1024_S32x1024x1_0_1 v)

/-- One half's chain of operations, as the reference spells it. -/
def halfSum (v : FVec F S32x1024 .f32) : FVec F S_ .f32 :=
  Host.reduceAdd (Host.sqrt (Host.reduceAdd (mulf (subf (alongLast v) (alongMiddle v)) (subf (alongLast v) (alongMiddle v)))
    (constant S_ .f32 0x00000000#32) reducesTo_S32x1024x1024_S1024_d0_2 h_S_)) (constant S_ .f32 0x00000000#32) reducesTo_S1024_S_d0 h_S_

/-- The reference's result: the two halves' sums added and divided by 64. -/
theorem result_eq (x0 x1 : FVec F S32x2048 .f32) :
    Read.val_main_v22 (F := F) x0 x1
      = Host.divf (addf (halfSum (extractStridedSlice S32x1024 ![0, 0] (subf x0 x1) slices_S32x2048_S32x1024_0_0))
            (halfSum (extractStridedSlice S32x1024 ![0, 1024] (subf x0 x1) slices_S32x2048_S32x1024_0_1024)))
          (constant S_ .f32 0x42800000#32) := rfl

/-- `alongLast` read at (b, i, k). -/
theorem alongLast_apply (v : FVec F S32x1024 .f32) (b : Fin 32) (i k : Fin 1024) :
    alongLast v (ix3 b i k) = v (ix2 b k) := by
  unfold alongLast
  refine (broadcastInDim_apply _ bcast_S32x1x1024_S32x1024x1024_0_1_2 _ (ix3 b i k) (ix3 b (0 : Fin 1) k) (fun a => match a with
    | ⟨0, _⟩ => by show b.val = if (32 : Nat) = 1 then 0 else b.val; rw [if_neg (by decide)]
    | ⟨1, _⟩ => by show 0 = if (1 : Nat) = 1 then 0 else i.val; rw [if_pos rfl]
    | ⟨2, _⟩ => by show k.val = if (1024 : Nat) = 1 then 0 else k.val; rw [if_neg (by decide)])).trans ?_
  exact broadcastInDim_apply _ bcast_S32x1024_S32x1x1024_0_2 v (ix3 b (0 : Fin 1) k) (ix2 b k) (fun a => match a with
    | ⟨0, _⟩ => by show b.val = if (32 : Nat) = 1 then 0 else b.val; rw [if_neg (by decide)]
    | ⟨1, _⟩ => by show k.val = if (1024 : Nat) = 1 then 0 else k.val; rw [if_neg (by decide)])

/-- `alongMiddle` read at (b, i, k). -/
theorem alongMiddle_apply (v : FVec F S32x1024 .f32) (b : Fin 32) (i k : Fin 1024) :
    alongMiddle v (ix3 b i k) = v (ix2 b i) := by
  unfold alongMiddle
  refine (broadcastInDim_apply _ bcast_S32x1024x1_S32x1024x1024_0_1_2 _ (ix3 b i k) (ix3 b i (0 : Fin 1)) (fun a => match a with
    | ⟨0, _⟩ => by show b.val = if (32 : Nat) = 1 then 0 else b.val; rw [if_neg (by decide)]
    | ⟨1, _⟩ => by show i.val = if (1024 : Nat) = 1 then 0 else i.val; rw [if_neg (by decide)]
    | ⟨2, _⟩ => by show 0 = if (1 : Nat) = 1 then 0 else k.val; rw [if_pos rfl])).trans ?_
  exact broadcastInDim_apply _ bcast_S32x1024_S32x1024x1_0_1 v (ix3 b i (0 : Fin 1)) (ix2 b i) (fun a => match a with
    | ⟨0, _⟩ => by show b.val = if (32 : Nat) = 1 then 0 else b.val; rw [if_neg (by decide)]
    | ⟨1, _⟩ => by show i.val = if (1024 : Nat) = 1 then 0 else i.val; rw [if_neg (by decide)])

/-- One half's sum of roots at its one index, over the coordinates. -/
theorem halfSum_apply (v : FVec Ideal S32x1024 .f32) (u : S_.Idx) :
    halfSum v u
      = Ideal.ofBits .f32 0x00000000#32 + ∑ i : Fin 1024, Ideal.sqrt (Ideal.ofBits .f32 0x00000000#32
          + ∑ b : Fin 32, ∑ k : Fin 1024, (v (ix2 b k) - v (ix2 b i)) * (v (ix2 b k) - v (ix2 b i))) := by
  unfold halfSum
  simp only [Host.reduceAdd, Ideal.hostReduceAdd_def]
  refine (Ideal.hostReduceAdd_total reducesTo_S1024_S_d0 (fun b => b.elim0) _ _ u).trans ?_
  refine congrArg₂ (· + ·) rfl ?_
  refine (Cert.ColumnSums.sum_idx1 _).trans (Finset.sum_congr rfl fun i _ => ?_)
  show Ideal.sqrt (Ideal.hostReduceAdd reducesTo_S32x1024x1024_S1024_d0_2 _ _ (ix1 i)) = _
  refine congrArg Ideal.sqrt ?_
  refine (Cert.OuterAxesSum.hostReduceAdd_outer _ _ reducesTo_S32x1024x1024_S1024_d0_2 i).trans ?_
  refine congrArg₂ (· + ·) rfl (Finset.sum_congr rfl fun b _ => Finset.sum_congr rfl fun k _ => ?_)
  show (alongLast v (ix3 b i k) - alongMiddle v (ix3 b i k)) * (alongLast v (ix3 b i k) - alongMiddle v (ix3 b i k)) = _
  rw [alongLast_apply, alongMiddle_apply]

end Cert.ReferenceIdeal.Half

end
-- ==== Proof.LibSquareExpand.lean ====
/-
  The algebra that joins the two programs. For a finite table `r b j` of REAL numbers (rows `b`, columns `j`) and an
  anchor column `i`, the sum over all entries of the squared difference to the anchor's entry of the same row,

      ∑_b ∑_j (r b j - r b i)²,

  is, by expanding the square and summing the three terms separately,

      ∑_b ∑_j (r b j)²  -  2 · ∑_b (∑_j r b j) · r b i  +  N · ∑_b (r b i)²,      N the number of columns:

  the cross term takes the row sum `∑_j r b j` out of the inner sum, and the last term does not depend on `j`, so the
  inner sum counts the columns. The identity is one of real numbers; it is then read on the extended reals at entries
  that are coercions of reals, where every sum and product is again the coercion of the real one (finiteness is what
  makes expanding the square legitimate: with an infinite entry the two sides need not agree).
-/
import Idealize.ShloMosaic.PureOps.Ideal

noncomputable section

open scoped BigOperators

namespace Cert.SquareExpand

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {B P : Type*} [Fintype B] [Fintype P]

/-- The square expanded, over the reals. -/
theorem real_expand (r : B → P → ℝ) (i : P) :
    ∑ b, ∑ j, (r b j - r b i) * (r b j - r b i)
      = (∑ b, ∑ j, r b j * r b j) - 2 * (∑ b, (∑ j, r b j) * r b i) + (Fintype.card P : ℝ) * ∑ b, r b i * r b i := by
  have h : ∀ b, ∑ j, (r b j - r b i) * (r b j - r b i)
      = (∑ j, r b j * r b j) - 2 * ((∑ j, r b j) * r b i) + (Fintype.card P : ℝ) * (r b i * r b i) := by
    intro b
    have e : ∀ j, (r b j - r b i) * (r b j - r b i) = r b j * r b j - 2 * (r b j * r b i) + r b i * r b i := fun j => by ring
    simp only [e, Finset.sum_add_distrib, Finset.sum_sub_distrib, ← Finset.mul_sum, ← Finset.sum_mul, Finset.sum_const,
      Finset.card_univ, nsmul_eq_mul]
    ring
  simp only [h, Finset.sum_add_distrib, Finset.sum_sub_distrib, ← Finset.mul_sum]

/-- The same on the extended reals, at entries that are real: `two` and `n` are whatever spellings of `2` and of the
    number of columns the programs use. -/
theorem ereal_expand (r : B → P → ℝ) (i : P) (two n : EReal) (h2 : two = ((2 : ℝ) : EReal))
    (hn : n = ((Fintype.card P : ℝ) : EReal)) :
    (∑ b, ∑ j, (r b j : EReal) * (r b j : EReal)) - two * (∑ b, (∑ j, (r b j : EReal)) * (r b i : EReal))
        + n * ∑ b, (r b i : EReal) * (r b i : EReal)
      = ∑ b, ∑ j, ((r b j : EReal) - (r b i : EReal)) * ((r b j : EReal) - (r b i : EReal)) := by
  subst h2 hn
  simp only [← EReal.coe_mul, ← EReal.coe_sub, ← coe_sum, ← EReal.coe_add]
  rw [real_expand r i]

end Cert.SquareExpand

end
-- ==== Proof.Bridge.lean ====
/-
  The two programs compute one number. With `d = pred - truth` and its two halves `X = d[:, :1024]`, `Y = d[:, 1024:]`,
  the kernel's result is `(K X + K Y) / 64` and the reference's `(R X + R Y) / 64`, where for a half `v`

      K v = ∑_i sqrt (S - 2 · a i + 1024 · c i)          (the expanded form),
      R v = ∑_i sqrt (∑_b ∑_k (v b k - v b i)²)           (the pairwise form).

  For real entries the two radicands are equal, anchor by anchor (the square expanded and summed term by term), so
  `K v = R v`, and the results agree. The entries of `d` are real because those of both inputs are.
-/
import proofs.«156745_j47278999994715_1_alg».proof.Proof.Gen.KernelIdeal.Frame
import proofs.«156745_j47278999994715_1_alg».proof.Proof.KernelHalf
import proofs.«156745_j47278999994715_1_alg».proof.Proof.RefHalf
import proofs.«156745_j47278999994715_1_alg».proof.Proof.LibSquareExpand
import Idealize.ShloMosaic.Lib.Pipeline.Value
import Idealize.ShloMosaic.Lib.ValueLayout

noncomputable section

open scoped BigOperators

namespace Cert.Bridge

open Idealize.ShloMosaic Idealize.ShloMosaic.ValueIdx

/-- The pattern of `2.0` denotes the real 2. -/
theorem ofBits_two : Ideal.ofBits .f32 0x40000000#32 = ((2 : ℝ) : EReal) := by
  simp [Ideal.ofBits, Ideal.ieee, -EReal.coe_mul]; norm_num

/-- The pattern of `1024.0` denotes the number of columns of a half. -/
theorem ofBits_cols : Ideal.ofBits .f32 0x44800000#32 = ((Fintype.card (Fin 1024) : ℝ) : EReal) := by
  simp [Ideal.ofBits, Ideal.ieee, -EReal.coe_mul]; norm_num

/-- For a half with real entries the kernel's sum of roots is the reference's. -/
theorem half_eq (v : FVec Ideal ⟨2, ![32, 1024]⟩ .f32) (hv : ∀ i, ∃ r : ℝ, v i = (r : EReal)) (u : (⟨0, ![]⟩ : Shape).Idx) :
    Cert.KernelIdeal.Half.halfSum v (ix2 (0 : Fin 1) (0 : Fin 1)) = Cert.ReferenceIdeal.Half.halfSum v u := by
  rw [Cert.KernelIdeal.Half.halfSum_apply, Cert.ReferenceIdeal.Half.halfSum_apply]
  simp only [Ideal.ofBits_zero_f32, zero_add]
  refine Finset.sum_congr rfl fun i _ => congrArg Ideal.sqrt ?_
  choose r hr using hv
  simp only [hr]
  exact Cert.SquareExpand.ereal_expand (fun b j => r (ix2 b j)) i _ _ ofBits_two ofBits_cols

/-- The offsets of a whole-buffer access, however spelt, are zero. -/
theorem hz : (![0, 0] : Fin 2 → Nat) = fun _ => 0 := funext fun a => by fin_cases a <;> rfl

/-- A slice of the difference of two real tables has real entries. -/
theorem slice_real (a0 a1 : FVec Ideal ⟨2, ![32, 2048]⟩ .f32) (h0 : ∀ i, ∃ r : ℝ, a0 i = (r : EReal))
    (h1 : ∀ i, ∃ r : ℝ, a1 i = (r : EReal)) (o : Nat) (hs : (⟨2, ![32, 2048]⟩ : Shape).Slices ![0, o] ⟨2, ![32, 1024]⟩)
    (i : (⟨2, ![32, 1024]⟩ : Shape).Idx) :
    ∃ r : ℝ, extractStridedSlice ⟨2, ![32, 1024]⟩ ![0, o] (subf a0 a1) hs i = (r : EReal) := by
  obtain ⟨b, j, rfl⟩ : ∃ (b : Fin 32) (j : Fin 1024), i = ix2 b j := ⟨i 0, i 1, eq_ix2 i⟩
  rw [slice2_axis1_eq]
  obtain ⟨r0, e0⟩ := h0 (ix2 b ⟨o + j.val, Nat.lt_of_lt_of_le (Nat.add_lt_add_left j.isLt o) (hs.2 1)⟩)
  obtain ⟨r1, e1⟩ := h1 (ix2 b ⟨o + j.val, Nat.lt_of_lt_of_le (Nat.add_lt_add_left j.isLt o) (hs.2 1)⟩)
  refine ⟨r0 - r1, ?_⟩
  rw [subf_apply, e0, e1, EReal.coe_sub]

/-- THE BRIDGE: for real input tables the kernel's result (its stored value read as a scalar) is the reference's. -/
theorem result_eq (a0 a1 : FVec Ideal ⟨2, ![32, 2048]⟩ .f32) (h0 : ∀ i, ∃ r : ℝ, a0 i = (r : EReal))
    (h1 : ∀ i, ∃ r : ℝ, a1 i = (r : EReal)) :
    shapeCast Cert.KernelIdeal.S_ (Cert.KernelIdeal.Gen.out0_2 (F := Ideal) a0 a1) Cert.KernelIdeal.Facts₀.shapeCasts_S1x1_S_
      = Cert.ReferenceIdeal.Read.val_main_v22 (F := Ideal) a0 a1 := by
  funext u
  rw [Cert.ReferenceIdeal.Half.result_eq]
  refine (shapeCast_apply _ _ u (ix2 (0 : Fin 1) (0 : Fin 1)) (by
    rw [Shape.rowMajor_val_two]
    show 0 * 1 + 0 = (Shape.rowMajorPi ![] u).val
    rw [Shape.rowMajorPi_zero])).trans ?_
  unfold Cert.KernelIdeal.Gen.out0_2
  rw [View.canon_unit_zero hz]
  simp only [View.ld_unit_zero (S := Cert.KernelIdeal.S32x2048) hz]
  rw [Cert.KernelIdeal.Half.stored_eq]
  show Ideal.div (Cert.KernelIdeal.Half.halfSum (F := Ideal) _ (ix2 (0 : Fin 1) (0 : Fin 1))
        + Cert.KernelIdeal.Half.halfSum (F := Ideal) _ (ix2 (0 : Fin 1) (0 : Fin 1))) (Ideal.ofBits .f32 0x42800000#32)
    = Ideal.div (Cert.ReferenceIdeal.Half.halfSum (F := Ideal) _ u + Cert.ReferenceIdeal.Half.halfSum (F := Ideal) _ u)
        (Ideal.ofBits .f32 0x42800000#32)
  rw [half_eq _ (slice_real a0 a1 h0 h1 0 _) u, half_eq _ (slice_real a0 a1 h0 h1 1024 _) u]

end Cert.Bridge

end
-- ==== Proof.lean ====
/-
  The certificate: a Pallas kernel that computes a pairwise-distance loss by an expanded square, against the jnp
  reference that materialises the pairwise differences.

  Both programs take `pred` and `truth`, tables of shape [32, 2048], form `d = pred - truth`, and treat the first and
  the last 1024 columns alike. For a half `v` (32 rows, 1024 columns) and an anchor column `i` the reference computes

      g i = ∑_b ∑_k (v b k - v b i)²,

  the kernel instead

      f i = ∑_b ∑_k (v b k)² - 2 · ∑_b (∑_k v b k) · v b i + 1024 · ∑_b (v b i)²,

  and both return `(∑_i sqrt (· i) over the first half + the same over the second half) / 64`. Expanding the square and
  summing term by term gives `f i = g i` for real entries; the precondition (every input entry finite) makes the entries
  real, which is what the expansion needs on the extended reals. The square root, the sums and the division by 64 are
  then the same functions applied to equal arguments.

  The frames of the two kernel programs are their frame runs; the reference's frame is its run with the result dropped;
  the idealization rewrote nothing, so `preserves` is trivial; `algebraic` puts the kernel's run (its result named as
  the body's stored value read as a scalar) beside the reference's run and joins the two results by the bridge.
-/
import proofs.«156745_j47278999994715_1_alg».proof.Defs
import proofs.«156745_j47278999994715_1_alg».proof.Proof.Gen.Kernel
import proofs.«156745_j47278999994715_1_alg».proof.Proof.Gen.Kernel.Frame
import proofs.«156745_j47278999994715_1_alg».proof.Proof.Gen.KernelIdeal
import proofs.«156745_j47278999994715_1_alg».proof.Proof.Gen.KernelIdeal.Frame
import proofs.«156745_j47278999994715_1_alg».proof.Proof.Gen.ReferenceIdeal
import proofs.«156745_j47278999994715_1_alg».proof.Proof.Gen.ReferenceIdeal.Run
import proofs.«156745_j47278999994715_1_alg».proof.Proof.Gen.ReferenceIdeal.Read
import proofs.«156745_j47278999994715_1_alg».proof.Proof.Gen.Pre_finite_inputs
import proofs.«156745_j47278999994715_1_alg».proof.Proof.KernelRun
import proofs.«156745_j47278999994715_1_alg».proof.Proof.FiniteEntries
import proofs.«156745_j47278999994715_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and its argument tables end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two tables, whose entries the precondition makes real, the kernel ends at its stored
    value read as a scalar and the reference at its composed term; the bridge says they are one number. -/
theorem algebraic : Cert.algebraic_KernelIdeal_ReferenceIdeal := by
  intro m ρ m' ρ' hpre hagree
  refine ⟨fun c => shapeCast Cert.KernelIdeal.S_
      (Cert.KernelIdeal.Gen.out0_2 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Facts₀.shapeCasts_S1x1_S_,
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Entries.real_of_pre _ _ (hpre c)
  rw [(hagree c).1, (hagree c).2]
  exact (Cert.ReferenceIdeal.Read.val_main_v22_eq _ _).trans (Cert.Bridge.result_eq _ _ h0 h1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
